-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x56x56x64 : Shape := ⟨4, ![32, 56, 56, 64]⟩
abbrev S_ : Shape := ⟨0, ![]⟩

class Facts : Prop where
  bcast_S_S32x56x56x64 : S_.BroadcastsInDim S32x56x56x64 (![] : Fin 0 → Fin S32x56x56x64.rank)
  reducesTo_S32x56x56x64_S_d0_1_2_3 : S32x56x56x64.ReducesTo [0, 1, 2, 3] S_
  h_S_ : 0 < S_.numel

variable [Facts]

def fn {F : FTy → Type} [FloatOps F] (main_arg0 : FVec F S32x56x56x64 .f32) (main_arg1 : IVec S32x56x56x64 32) : IVec S_ 1 :=
  let main_v0 : FVec F S32x56x56x64 .f32 := Host.absf main_arg0
  let main_cst : FVec F S_ .f32 := constant S_ .f32 0x7F800000#32
  let main_v1 : FVec F S32x56x56x64 .f32 := broadcastInDim S32x56x56x64 ![] bcast_S_S32x56x56x64 main_cst
  let main_v2 : IVec S32x56x56x64 1 := cmpf .olt main_v0 main_v1
  let main_c : IVec S_ 1 := constantI S_ 1 1#1
  let main_v3 : IVec S_ 1 := (fun x v => Host.reduce IntOp.andi x v reducesTo_S32x56x56x64_S_d0_1_2_3 h_S_) main_v2 main_c
  main_v3
-- ==== Kernel.lean ====
abbrev S32x56x56x64 : Shape := ⟨4, ![32, 56, 56, 64]⟩
abbrev S32x112x112x64 : Shape := ⟨4, ![32, 112, 112, 64]⟩
abbrev S4x112x112x64 : Shape := ⟨4, ![4, 112, 112, 64]⟩
abbrev S25690112 : Shape := ⟨1, ![25690112]⟩
abbrev S6422528 : Shape := ⟨1, ![6422528]⟩
abbrev S_ : Shape := ⟨0, ![]⟩
abbrev S6422528x1 : Shape := ⟨2, ![6422528, 1]⟩

abbrev nBuf : Space → Nat
  | .hbm => 16
  | .vmem => 2
  | .smem => 0
  | _ => 0

abbrev bufTy : (tb : Table) → Fin (tcTables nBuf tb) → BufTy
  | .hbm, ⟨0, _⟩ => ⟨S32x56x56x64, .f32⟩
  | .hbm, ⟨1, _⟩ => ⟨S32x56x56x64, .i32⟩
  | .hbm, ⟨2, _⟩ => ⟨S32x112x112x64, .f32⟩
  | .hbm, ⟨3, _⟩ => ⟨S25690112, .f32⟩
  | .hbm, ⟨4, _⟩ => ⟨S6422528, .f32⟩
  | .hbm, ⟨5, _⟩ => ⟨S6422528, .i32⟩
  | .hbm, ⟨6, _⟩ => ⟨S_, .i32⟩
  | .hbm, ⟨7, _⟩ => ⟨S6422528, .i32⟩
  | .hbm, ⟨8, _⟩ => ⟨S6422528, .i1⟩
  | .hbm, ⟨9, _⟩ => ⟨S_, .i32⟩
  | .hbm, ⟨10, _⟩ => ⟨S6422528, .i32⟩
  | .hbm, ⟨11, _⟩ => ⟨S6422528, .i32⟩
  | .hbm, ⟨12, _⟩ => ⟨S6422528, .i32⟩
  | .hbm, ⟨13, _⟩ => ⟨S6422528x1, .i32⟩
  | .hbm, ⟨14, _⟩ => ⟨S25690112, .f32⟩
  | .hbm, ⟨15, _⟩ => ⟨S32x112x112x64, .f32⟩
  | .local _ .vmem, ⟨0, _⟩ => ⟨S4x112x112x64, .f32⟩
  | .local _ .vmem, ⟨1, _⟩ => ⟨S4x112x112x64, .f32⟩
  | _, _ => ⟨S32x56x56x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x112x112x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  inb_S4x112x112x64_S4x112x112x64_0_0_0_0 : ∀ a, (![0, 0, 0, 0] : Fin 4 → Nat) a + S4x112x112x64.size a ≤ S4x112x112x64.size a
  h_S4x112x112x64 : 0 < S4x112x112x64.numel
  shapeCasts_S32x112x112x64_S25690112 : S32x112x112x64.ShapeCasts S25690112
  shapeCasts_S32x56x56x64_S6422528 : S32x56x56x64.ShapeCasts S6422528
  bcast_S_S6422528 : S_.BroadcastsInDim S6422528 (![] : Fin 0 → Fin S6422528.rank)
  bcast_S6422528_S6422528x1_0 : S6422528.BroadcastsInDim S6422528x1 (![0] : Fin 1 → Fin S6422528x1.rank)
  shapeCasts_S25690112_S32x112x112x64 : S25690112.ShapeCasts S32x112x112x64
  scatter_S25690112_S6422528x1_S6422528_n_0_0_1_wf : ScatterDims.WF S25690112 S6422528x1 S6422528 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x112x112x64.size a ≤ S32x112x112x64.size a
  hwx0_0 : ∀ i : grid0.Coords, EltTy.bits .f32 = 32 ∨ (Rect.block (s := S32x112x112x64) S4x112x112x64.size (cc0_transform_0 i) (hinb0_0 i)).WholeWords (EltTy.packing .f32)

variable [Facts₀]

def scatter_S25690112_S6422528x1_S6422528_n_0_0_1 : ScatterDims S25690112 S6422528x1 S6422528 where
  updateWindowDims := []
  insertedWindowDims := [0]
  scatterDimsToOperandDims := [0]
  indexVectorDim := 1
  wf := scatter_S25690112_S6422528x1_S6422528_n_0_0_1_wf

abbrev win0_0 : Pipeline.Window sig grid0 :=
  Pipeline.Window.ofSpec (Memref.whole main_v0) S4x112x112x64.size cc0_transform_0 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S32x56x56x64 : Shape := ⟨4, ![32, 56, 56, 64]⟩
abbrev S6422528 : Shape := ⟨1, ![6422528]⟩
abbrev S_ : Shape := ⟨0, ![]⟩
abbrev S25690112 : Shape := ⟨1, ![25690112]⟩
abbrev S6422528x1 : Shape := ⟨2, ![6422528, 1]⟩
abbrev S32x112x112x64 : Shape := ⟨4, ![32, 112, 112, 64]⟩

abbrev nBuf : Space → Nat
  | .hbm => 16
  | .vmem => 0
  | .smem => 0
  | _ => 0

abbrev bufTy : (tb : Table) → Fin (tcTables nBuf tb) → BufTy
  | .hbm, ⟨0, _⟩ => ⟨S32x56x56x64, .f32⟩
  | .hbm, ⟨1, _⟩ => ⟨S32x56x56x64, .i32⟩
  | .hbm, ⟨2, _⟩ => ⟨S6422528, .f32⟩
  | .hbm, ⟨3, _⟩ => ⟨S6422528, .i32⟩
  | .hbm, ⟨4, _⟩ => ⟨S_, .f32⟩
  | .hbm, ⟨5, _⟩ => ⟨S25690112, .f32⟩
  | .hbm, ⟨6, _⟩ => ⟨S_, .i32⟩
  | .hbm, ⟨7, _⟩ => ⟨S6422528, .i32⟩
  | .hbm, ⟨8, _⟩ => ⟨S6422528, .i1⟩
  | .hbm, ⟨9, _⟩ => ⟨S_, .i32⟩
  | .hbm, ⟨10, _⟩ => ⟨S6422528, .i32⟩
  | .hbm, ⟨11, _⟩ => ⟨S6422528, .i32⟩
  | .hbm, ⟨12, _⟩ => ⟨S6422528, .i32⟩
  | .hbm, ⟨13, _⟩ => ⟨S6422528x1, .i32⟩
  | .hbm, ⟨14, _⟩ => ⟨S25690112, .f32⟩
  | .hbm, ⟨15, _⟩ => ⟨S32x112x112x64, .f32⟩
  | _, _ => ⟨S32x56x56x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  shapeCasts_S32x56x56x64_S6422528 : S32x56x56x64.ShapeCasts S6422528
  bcast_S_S25690112 : S_.BroadcastsInDim S25690112 (![] : Fin 0 → Fin S25690112.rank)
  bcast_S_S6422528 : S_.BroadcastsInDim S6422528 (![] : Fin 0 → Fin S6422528.rank)
  bcast_S6422528_S6422528x1_0 : S6422528.BroadcastsInDim S6422528x1 (![0] : Fin 1 → Fin S6422528x1.rank)
  shapeCasts_S25690112_S32x112x112x64 : S25690112.ShapeCasts S32x112x112x64
  scatter_S25690112_S6422528x1_S6422528_n_0_0_1_wf : ScatterDims.WF S25690112 S6422528x1 S6422528 [] [0] [0] 1

variable [Facts₀]

def scatter_S25690112_S6422528x1_S6422528_n_0_0_1 : ScatterDims S25690112 S6422528x1 S6422528 where
  updateWindowDims := []
  insertedWindowDims := [0]
  scatterDimsToOperandDims := [0]
  indexVectorDim := 1
  wf := scatter_S25690112_S6422528x1_S6422528_n_0_0_1_wf

class Facts : Prop extends Facts₀ where

variable [Facts]
-- ==== Proof.ZeroFill.lean ====
/-
  What the zero-filling region leaves in its output array.

  The region runs on a grid of 8 points. At point t the body stores, over the whole 4x112x112x64 block, the
  broadcast of the f32 word 0x00000000; the block is written back to rows [4t, 4t+4) of the batch axis of the
  32x112x112x64 array, all of the other three axes. The eight blocks tile the array, so after the region every
  entry of the array is that one word's value: the array is a constant function.
-/
import proofs.«168891_j72000831750265_1_alg».proof.Proof.KernelIdealFramePatched
import Idealize.ShloMosaic.Lib.Pipeline.Value

set_option maxRecDepth 16384

noncomputable section

namespace Cert.KernelIdeal.Fill

open Idealize.ShloMosaic Idealize.ShloMosaic.TcCoe Idealize.SL.Sem
open Idealize.ShloMosaic.Pipeline (Dat Cfg Window)
open Cert.KernelIdeal Cert.KernelIdeal.Gen Cert.KernelIdeal.GenP

variable {F : FTy → Type} [FloatOps F]
variable (m : (ℓ : Loc nD τ sig) → Buf (Elt F) ℓ) (ρ : Dev nD → PrngReg)

/-- The store's offsets are all zero. -/
theorem zero_offsets : (![0, 0, 0, 0] : Fin 4 → Nat) = fun _ => 0 := funext fun a => by fin_cases a <;> rfl

/-- The constant array: every entry the value of the f32 word 0. -/
abbrev zeroArr : S32x112x112x64.Idx → Elt F .f32 := fun _ => Scalar.ofBits .f32 0x00000000#32

/-- What point t writes back is the constant array read through point t's block: the body's one store covers the
    block with the broadcast of the zero word, whatever the block held. -/
theorem flushed_zero (c : Dev nD) (t : Fin cfg0.N) :
    (dats m 0 c).flushed 0 t = ((cfg0.win 0).blk t).view.read (Elt F) (zeroArr (F := F)) := by
  show (cfg0.win 0).cut (grid0.coords t) ((dats m 0 c).after 0 t) = _
  rw [after0_0]
  unfold out0_0
  rw [View.canon_unit_zero zero_offsets]
  funext j
  rfl

/-- The printed index map over the grid: on the batch axis the block index is the point's number, on the other
    three axes it is zero. -/
theorem index_facts : ∀ t : Fin cfg0.N, win0_0.index t (0 : Fin 4) = t.val
    ∧ win0_0.index t (1 : Fin 4) = 0 ∧ win0_0.index t (2 : Fin 4) = 0 ∧ win0_0.index t (3 : Fin 4) = 0 :=
  (by decide +kernel : ∀ t : Fin grid0.N, _)

/-- An index of the array is in point t's block iff on each axis its coordinate lies in the block's range. -/
theorem mem_block (t : Fin cfg0.N) (i : S32x112x112x64.Idx) :
    i ∈ ((cfg0.win 0).blk t).view.set ↔ ∀ a : Fin 4, win0_0.index t a * S4x112x112x64.size a ≤ (i a).val
      ∧ (i a).val < win0_0.index t a * S4x112x112x64.size a + S4x112x112x64.size a := by
  show i ∈ ((View.whole main_v0).slice (win0_0.rect t)).set ↔ _
  rw [View.set_slice_whole, Rect.mem_set_unit]
  exact Iff.rfl

/-- Every index of the array is in the block of the point numbered (its batch coordinate) / 4, which is written
    back. -/
theorem covered (i : S32x112x112x64.Idx) :
    ∃ t : Fin cfg0.N, (cfg0.win 0).flush t = true ∧ i ∈ ((cfg0.win 0).blk t).view.set := by
  have h0 : (i 0).val < 32 := (i 0).isLt
  have h1 : (i 1).val < 112 := (i 1).isLt
  have h2 : (i 2).val < 112 := (i 2).isLt
  have h3 : (i 3).val < 64 := (i 3).isLt
  obtain ⟨t, ht⟩ : ∃ t : Fin cfg0.N, t.val = (i 0).val / 4 :=
    ⟨⟨(i 0).val / 4, by show (i 0).val / 4 < grid0.N; rw [N_0]; omega⟩, rfl⟩
  obtain ⟨e0, e1, e2, e3⟩ := index_facts t
  refine ⟨t, flush0_0 t, ?_⟩
  rw [mem_block]
  intro a
  match a with
  | ⟨0, _⟩ =>
    show win0_0.index t (0 : Fin 4) * 4 ≤ (i 0).val ∧ (i 0).val < win0_0.index t (0 : Fin 4) * 4 + 4
    omega
  | ⟨1, _⟩ =>
    show win0_0.index t (1 : Fin 4) * 112 ≤ (i 1).val ∧ (i 1).val < win0_0.index t (1 : Fin 4) * 112 + 112
    omega
  | ⟨2, _⟩ =>
    show win0_0.index t (2 : Fin 4) * 112 ≤ (i 2).val ∧ (i 2).val < win0_0.index t (2 : Fin 4) * 112 + 112
    omega
  | ⟨3, _⟩ =>
    show win0_0.index t (3 : Fin 4) * 64 ≤ (i 3).val ∧ (i 3).val < win0_0.index t (3 : Fin 4) * 64 + 64
    omega

/-- After the region the output array is the constant array. -/
theorem final (c : Dev nD) : (dats m 0 c).arrAt 0 cfg0.N = zeroArr (F := F) :=
  (dats m 0 c).arrAt_eq_of_cover 0 (zeroArr (F := F)) (fun t _ => flushed_zero m c t) covered

end Cert.KernelIdeal.Fill

end
-- ==== Proof.KernelRun.lean ====
/-
  The kernel program's run, read as a value.

  After the zero-filling region the program flattens the region's array to 25690112 entries, flattens x and pos to
  6422528 entries each, replaces every negative position p by p + 25690112, and scatters the entries of x into the
  flattened array at those positions (a later update at a position replaces an earlier one), then gives the result the
  shape 32x112x112x64. That whole stretch is one function `unpool z x p` of the scatter's operand z and the two
  arguments. The region's array is the constant zero array, so the program's result is
  `unpool (the flattened constant zero array) x pos`; the two argument arrays end as they began.
-/
import proofs.«168891_j72000831750265_1_alg».proof.Proof.ZeroFill
import Idealize.ShloMosaic.Lib.StableHlo.Run

set_option maxRecDepth 16384

noncomputable section

namespace Cert.KernelIdeal.Fill

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.GenP

variable {F : FTy → Type} [FloatOps F]
variable (m : (ℓ : Loc nD τ sig) → Buf (Elt F) ℓ) (ρ : Dev nD → PrngReg)

/-- Max-unpooling over a given operand z: entry x[j] is written at flat position pos[j] (pos[j] + 25690112 when
    pos[j] is negative) of z, and the result is reshaped to 32x112x112x64. -/
def unpool (z : Vec F S25690112 .f32) (x : Vec F S32x56x56x64 .f32) (p : Vec F S32x56x56x64 .i32) :
    Vec F S32x112x112x64 .f32 :=
  shapeCast _ (Host.scatter scatter_S25690112_S6422528x1_S6422528_n_0_0_1 (fun _ b => b) z
    (broadcastInDim S6422528x1 ![0] bcast_S6422528_S6422528x1_0
      (select (cmpi .slt (shapeCast _ p shapeCasts_S32x56x56x64_S6422528) (broadcastInDim S6422528 ![] bcast_S_S6422528 (constantI S_ 32 0#32)))
        (addi (shapeCast _ p shapeCasts_S32x56x56x64_S6422528) (broadcastInDim S6422528 ![] bcast_S_S6422528 (constantI S_ 32 25690112#32)))
        (shapeCast _ p shapeCasts_S32x56x56x64_S6422528)))
    (shapeCast _ x shapeCasts_S32x56x56x64_S6422528)) shapeCasts_S25690112_S32x112x112x64

/-- What the operations after the region leave in the result buffer: `unpool` of the flattened constant zero array
    and the two arguments as launched. The region's array is the constant zero array (`final`); the arguments are no
    array of the region and no operation before it exists, so they are read as launched. -/
theorem tail_value (c : Dev nD) :
    Pipeline.afterTail₀ cfgs (dats m) 0 (V0 m) [hostOps1] c main_v11
      = unpool (shapeCast _ (zeroArr (F := F)) shapeCasts_S32x112x112x64_S25690112)
          (m ((c.tc : Thread nD τ).loc main_arg0)) (m ((c.tc : Thread nD τ).loc main_arg1)) := by
  have hA : Pipeline.withArrays (cfgs 0).spec c (V0 m c) (fun w => (dats m 0 c).arrAt w (cfgs 0).N) (Proc.devRef .tc main_v0)
      = zeroArr (F := F) :=
    (Pipeline.withArrays_arr spec0 launch0.win.arr_inj c _ _ 0).trans (final m c)
  have h0 : Pipeline.withArrays (cfgs 0).spec c (V0 m c) (fun w => (dats m 0 c).arrAt w (cfgs 0).N) (Proc.devRef .tc main_arg0)
      = m ((c.tc : Thread nD τ).loc main_arg0) :=
    (Pipeline.withArrays_of_ne _ c (V0 m c) _ main_arg0 (by exact (by decide : ∀ w, Pipeline.arrRef spec0 w ≠ main_arg0))).trans
      (V_main_arg0 m c)
  have h1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  show StableHlo.after hostOps1 _ (Proc.devRef .tc main_v11) = _
  after_results
  rw [hA, h0, h1]
  rfl

/-- Every weakly fair execution of the program terminates with the result buffer at `unpool` of the flattened
    constant zero array and the arguments, and with both argument arrays unchanged. -/
theorem run : θ_run defs (onTc (τ := τ) (main (F := F))) ⟨m, fun _ => 0, ρ⟩ fun r => ∀ c : Dev nD,
      r.2.mem ((c.tc : Thread nD τ).loc main_v11)
        = unpool (shapeCast _ (zeroArr (F := F)) shapeCasts_S32x112x112x64_S25690112)
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v11 (Pipeline.mem_restRefs_of main_v11 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Fill

end
-- ==== Proof.Bridge.lean ====
/-
  The reference's result is the kernel program's result.

  The reference scatters x by pos into a broadcast of the f32 constant 0 of 25690112 entries; the kernel program
  scatters into the flattening of the region's 32x112x112x64 array, which is constant at the same word's value.
  Flattening a constant array and broadcasting a constant give the same constant function, and everything after the
  operand (the flattening of x and pos, the wrap of negative positions, the scatter, the final reshape) is the same
  term on both sides, so the two results are one function of x and pos. No law of arithmetic is used.
-/
import proofs.«168891_j72000831750265_1_alg».proof.Proof.KernelRun
import proofs.«168891_j72000831750265_1_alg».proof.Proof.Gen.ReferenceIdeal.Run

noncomputable section

namespace Cert.ReferenceIdeal.RefValue

open Idealize.ShloMosaic Idealize.ShloMosaic.TcCoe Idealize.SL.Sem
open Cert.ReferenceIdeal Cert.ReferenceIdeal.Gen

variable {F : FTy → Type} [FloatOps F]

/-- The broadcast of the scalar constant 0 to 25690112 entries is the flattening of the constant zero array: both
    are the constant function at the f32 word 0's value. -/
theorem zeros_eq :
    broadcastInDim S25690112 ![] bcast_S_S25690112 (constant (F := F) S_ .f32 0x00000000#32)
      = shapeCast Cert.KernelIdeal.S25690112 (Cert.KernelIdeal.Fill.zeroArr (F := F))
          Cert.KernelIdeal.Gen.shapeCasts_S32x112x112x64_S25690112 := by
  funext i
  rfl

/-- The reference run's result term is `unpool` of the flattened constant zero array and the same two arguments. -/
theorem result_eq (x : Vec F S32x56x56x64 .f32) (p : Vec F S32x56x56x64 .i32) :
    shapeCast _ (Host.scatter scatter_S25690112_S6422528x1_S6422528_n_0_0_1 (fun _ b => b)
        (broadcastInDim S25690112 ![] bcast_S_S25690112 (constant (F := F) S_ .f32 0x00000000#32))
        (broadcastInDim S6422528x1 ![0] bcast_S6422528_S6422528x1_0
          (select (cmpi .slt (shapeCast _ p shapeCasts_S32x56x56x64_S6422528) (broadcastInDim S6422528 ![] bcast_S_S6422528 (constantI S_ 32 0#32)))
            (addi (shapeCast _ p shapeCasts_S32x56x56x64_S6422528) (broadcastInDim S6422528 ![] bcast_S_S6422528 (constantI S_ 32 25690112#32)))
            (shapeCast _ p shapeCasts_S32x56x56x64_S6422528)))
        (shapeCast _ x shapeCasts_S32x56x56x64_S6422528)) shapeCasts_S25690112_S32x112x112x64
      = Cert.KernelIdeal.Fill.unpool
          (shapeCast _ (Cert.KernelIdeal.Fill.zeroArr (F := F)) Cert.KernelIdeal.Gen.shapeCasts_S32x112x112x64_S25690112) x p := by
  rw [zeros_eq]
  rfl

end Cert.ReferenceIdeal.RefValue

end
-- ==== Proof.lean ====
/-
  Max-unpooling by a scatter into a zeroed buffer: the kernel program against its reference.

  Both programs flatten x and pos, replace a negative position p by p + 25690112, scatter the entries of x at those
  positions into a buffer of 25690112 zeros and reshape the result to 32x112x112x64. They differ only in where the
  zeros come from: the reference broadcasts the f32 constant 0, the kernel program fills a 32x112x112x64 array with
  that same word in a region of 8 grid points (point t writes rows [4t, 4t+4) of the batch axis) and flattens it.
  The eight blocks tile the array, so the region leaves the constant zero array (Proof/ZeroFill.lean); the operations
  after the region then compute `unpool` of its flattening and the arguments (Proof/KernelRun.lean); and a flattened
  constant array is the broadcast of the constant, so the reference's result is the same term (Proof/Bridge.lean).
  The equality holds for every x and pos: the precondition (x finite) is not used.

  The three frames: each kernel program's frame is the generated class A frame certificate, and the reference, which
  launches no kernel, has its generated run with the result dropped. The ideal pass rewrote no operation, so the
  preservation claim is `True`.
-/
import proofs.«168891_j72000831750265_1_alg».proof.Defs
import proofs.«168891_j72000831750265_1_alg».proof.Proof.Gen.Kernel
import proofs.«168891_j72000831750265_1_alg».proof.Proof.KernelFramePatched
import proofs.«168891_j72000831750265_1_alg».proof.Proof.Gen.KernelIdeal
import proofs.«168891_j72000831750265_1_alg».proof.Proof.KernelIdealFramePatched
import proofs.«168891_j72000831750265_1_alg».proof.Proof.Gen.ReferenceIdeal
import proofs.«168891_j72000831750265_1_alg».proof.Proof.Gen.ReferenceIdeal.Run
import proofs.«168891_j72000831750265_1_alg».proof.Proof.Gen.Pre_finite_inputs
import proofs.«168891_j72000831750265_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.GenP.frame m ρ

/-- So does the kernel program read over the extended reals. -/
theorem frame_kernel_ideal : Cert.frame_KernelIdeal := fun m ρ _ => Cert.KernelIdeal.GenP.frame m ρ

/-- The reference runs and keeps its arguments: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x and pos, the kernel program ends at `unpool` of the flattened constant zero array
    and the arguments, and the reference ends at the same value. -/
theorem algebraic : Cert.algebraic_KernelIdeal_ReferenceIdeal := by
  intro m ρ m' ρ' _ hagree
  refine ⟨_, Cert.KernelIdeal.Fill.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
